-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x16 : Shape := ⟨2, ![1000, 16]⟩
abbrev S1024x500 : Shape := ⟨2, ![1024, 500]⟩
abbrev S500 : Shape := ⟨1, ![500]⟩
abbrev S500x200 : Shape := ⟨2, ![500, 200]⟩
abbrev S200 : Shape := ⟨1, ![200]⟩
abbrev S200x200 : Shape := ⟨2, ![200, 200]⟩
abbrev S1224x1 : Shape := ⟨2, ![1224, 1]⟩
abbrev S1 : Shape := ⟨1, ![1]⟩
abbrev S2x3x1024 : Shape := ⟨3, ![2, 3, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_
  bcast_S_S1024x500 : S_.BroadcastsInDim S1024x500 (![] : Fin 0 → Fin S1024x500.rank)
  reducesTo_S1024x500_S_d0_1 : S1024x500.ReducesTo [0, 1] S_
  bcast_S_S500 : S_.BroadcastsInDim S500 (![] : Fin 0 → Fin S500.rank)
  reducesTo_S500_S_d0 : S500.ReducesTo [0] S_
  bcast_S_S500x200 : S_.BroadcastsInDim S500x200 (![] : Fin 0 → Fin S500x200.rank)
  reducesTo_S500x200_S_d0_1 : S500x200.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S1224x1 : S_.BroadcastsInDim S1224x1 (![] : Fin 0 → Fin S1224x1.rank)
  reducesTo_S1224x1_S_d0_1 : S1224x1.ReducesTo [0, 1] S_
  bcast_S_S1 : S_.BroadcastsInDim S1 (![] : Fin 0 → Fin S1.rank)
  reducesTo_S1_S_d0 : S1.ReducesTo [0] S_
  bcast_S_S2x3x1024 : S_.BroadcastsInDim S2x3x1024 (![] : Fin 0 → Fin S2x3x1024.rank)
  reducesTo_S2x3x1024_S_d0_1_2 : S2x3x1024.ReducesTo [0, 1, 2] S_

variable [Facts]

def fn_part3 {F : FTy → Type} [FloatOps F] (main_arg12 : FVec F S2x3x1024 .f32) (main_v48 : IVec S_ 1) (main_v49 : FVec F S2x3x1024 .f32) (main_v50 : FVec F S2x3x1024 .f32) : IVec S_ 1 :=
  let main_v51 : IVec S2x3x1024 1 := cmpf .olt main_v49 main_v50
  let main_c_19 : IVec S_ 1 := constantI S_ 1 1#1
  let main_v52 : IVec S_ 1 := (fun x v => Host.reduce IntOp.andi x v reducesTo_S2x3x1024_S_d0_1_2 h_S_) main_v51 main_c_19
  let main_v53 : IVec S_ 1 := andi main_v48 main_v52
  let main_v54 : FVec F S2x3x1024 .f32 := Host.absf main_arg12
  let main_cst_20 : FVec F S_ .f32 := constant S_ .f32 0x7F800000#32
  let main_v55 : FVec F S2x3x1024 .f32 := broadcastInDim S2x3x1024 ![] bcast_S_S2x3x1024 main_cst_20
  let main_v56 : IVec S2x3x1024 1 := cmpf .olt main_v54 main_v55
  let main_c_21 : IVec S_ 1 := constantI S_ 1 1#1
  let main_v57 : IVec S_ 1 := (fun x v => Host.reduce IntOp.andi x v reducesTo_S2x3x1024_S_d0_1_2 h_S_) main_v56 main_c_21
  let main_v58 : IVec S_ 1 := andi main_v53 main_v57
  main_v58

def fn_part2 {F : FTy → Type} [FloatOps F] (main_arg8 : FVec F S200 .f32) (main_arg9 : FVec F S1224x1 .f32) (main_arg10 : FVec F S1 .f32) (main_arg11 : FVec F S2x3x1024 .f32) (main_arg12 : FVec F S2x3x1024 .f32) (main_v33 : IVec S_ 1) : IVec S_ 1 :=
  let main_v34 : FVec F S200 .f32 := Host.absf main_arg8
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  let main_v39 : FVec F S1224x1 .f32 := Host.absf main_arg9
  let main_cst_14 : FVec F S_ .f32 := constant S_ .f32 0x7F800000#32
  let main_v40 : FVec F S1224x1 .f32 := broadcastInDim S1224x1 ![] bcast_S_S1224x1 main_cst_14
  let main_v41 : IVec S1224x1 1 := cmpf .olt main_v39 main_v40
  let main_c_15 : IVec S_ 1 := constantI S_ 1 1#1
  let main_v42 : IVec S_ 1 := (fun x v => Host.reduce IntOp.andi x v reducesTo_S1224x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2x3x1024 .f32 := Host.absf main_arg11
  let main_cst_18 : FVec F S_ .f32 := constant S_ .f32 0x7F800000#32
  let main_v50 : FVec F S2x3x1024 .f32 := broadcastInDim S2x3x1024 ![] bcast_S_S2x3x1024 main_cst_18
  fn_part3 (F := F) main_arg12 main_v48 main_v49 main_v50

def fn_part1 {F : FTy → Type} [FloatOps F] (main_arg5 : FVec F S500x200 .f32) (main_arg6 : FVec F S200 .f32) (main_arg7 : FVec F S200x200 .f32) (main_arg8 : FVec F S200 .f32) (main_arg9 : FVec F S1224x1 .f32) (main_arg10 : FVec F S1 .f32) (main_arg11 : FVec F S2x3x1024 .f32) (main_arg12 : FVec F S2x3x1024 .f32) (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  let main_v19 : FVec F S500x200 .f32 := Host.absf main_arg5
  let main_cst_6 : FVec F S_ .f32 := constant S_ .f32 0x7F800000#32
  let main_v20 : FVec F S500x200 .f32 := broadcastInDim S500x200 ![] bcast_S_S500x200 main_cst_6
  let main_v21 : IVec S500x200 1 := cmpf .olt main_v19 main_v20
  let main_c_7 : IVec S_ 1 := constantI S_ 1 1#1
  let main_v22 : IVec S_ 1 := (fun x v => Host.reduce IntOp.andi x v reducesTo_S500x200_S_d0_1 h_S_) main_v21 main_c_7
  let main_v23 : IVec S_ 1 := andi main_v18 main_v22
  let main_v24 : FVec F S200 .f32 := Host.absf main_arg6
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S200x200 .f32 := Host.absf main_arg7
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S16384x1024 .f32) (main_arg1 : IVec S16384 32) (main_arg2 : FVec F S1000x16 .f32) (main_arg3 : FVec F S1024x500 .f32) (main_arg4 : FVec F S500 .f32) (main_arg5 : FVec F S500x200 .f32) (main_arg6 : FVec F S200 .f32) (main_arg7 : FVec F S200x200 .f32) (main_arg8 : FVec F S200 .f32) (main_arg9 : FVec F S1224x1 .f32) (main_arg10 : FVec F S1 .f32) (main_arg11 : FVec F S2x3x1024 .f32) (main_arg12 : FVec F S2x3x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x16 .f32 := Host.absf main_arg2
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  let main_v9 : FVec F S1024x500 .f32 := Host.absf main_arg3
  let main_cst_2 : FVec F S_ .f32 := constant S_ .f32 0x7F800000#32
  let main_v10 : FVec F S1024x500 .f32 := broadcastInDim S1024x500 ![] bcast_S_S1024x500 main_cst_2
  let main_v11 : IVec S1024x500 1 := cmpf .olt main_v9 main_v10
  let main_c_3 : IVec S_ 1 := constantI S_ 1 1#1
  let main_v12 : IVec S_ 1 := (fun x v => Host.reduce IntOp.andi x v reducesTo_S1024x500_S_d0_1 h_S_) main_v11 main_c_3
  let main_v13 : IVec S_ 1 := andi main_v8 main_v12
  let main_v14 : FVec F S500 .f32 := Host.absf main_arg4
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_arg5 main_arg6 main_arg7 main_arg8 main_arg9 main_arg10 main_arg11 main_arg12 main_v13 main_v16
-- ==== Kernel.lean ====
abbrev S16384x1024 : Shape := ⟨2, ![16384, 1024]⟩
abbrev S16384 : Shape := ⟨1, ![16384]⟩
abbrev S1000x16 : Shape := ⟨2, ![1000, 16]⟩
abbrev S1024x500 : Shape := ⟨2, ![1024, 500]⟩
abbrev S500 : Shape := ⟨1, ![500]⟩
abbrev S500x200 : Shape := ⟨2, ![500, 200]⟩
abbrev S200 : Shape := ⟨1, ![200]⟩
abbrev S200x200 : Shape := ⟨2, ![200, 200]⟩
abbrev S1224x1 : Shape := ⟨2, ![1224, 1]⟩
abbrev S1 : Shape := ⟨1, ![1]⟩
abbrev S2x3x1024 : Shape := ⟨3, ![2, 3, 1024]⟩
abbrev S16384x1 : Shape := ⟨2, ![16384, 1]⟩
abbrev S1024x1024 : Shape := ⟨2, ![1024, 1024]⟩
abbrev S1024x1 : Shape := ⟨2, ![1024, 1]⟩
abbrev S1x500 : Shape := ⟨2, ![1, 500]⟩
abbrev S1024x200 : Shape := ⟨2, ![1024, 200]⟩
abbrev S1x200 : Shape := ⟨2, ![1, 200]⟩
abbrev S1024 : Shape := ⟨1, ![1024]⟩
abbrev S1x1x1024 : Shape := ⟨3, ![1, 1, 1024]⟩
abbrev S1x1024 : Shape := ⟨2, ![1, 1024]⟩
abbrev S1024x1224 : Shape := ⟨2, ![1024, 1224]⟩
abbrev S1x1 : Shape := ⟨2, ![1, 1]⟩

abbrev nBuf : Space → Nat
  | .hbm => 19
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x16, .f32⟩
  | .hbm, ⟨3, _⟩ => ⟨S1024x500, .f32⟩
  | .hbm, ⟨4, _⟩ => ⟨S500, .f32⟩
  | .hbm, ⟨5, _⟩ => ⟨S500x200, .f32⟩
  | .hbm, ⟨6, _⟩ => ⟨S200, .f32⟩
  | .hbm, ⟨7, _⟩ => ⟨S200x200, .f32⟩
  | .hbm, ⟨8, _⟩ => ⟨S200, .f32⟩
  | .hbm, ⟨9, _⟩ => ⟨S1224x1, .f32⟩
  | .hbm, ⟨10, _⟩ => ⟨S1, .f32⟩
  | .hbm, ⟨11, _⟩ => ⟨S2x3x1024, .f32⟩
  | .hbm, ⟨12, _⟩ => ⟨S2x3x1024, .f32⟩
  | .hbm, ⟨13, _⟩ => ⟨S1024x500, .bf16⟩
  | .hbm, ⟨14, _⟩ => ⟨S500x200, .bf16⟩
  | .hbm, ⟨15, _⟩ => ⟨S200x200, .bf16⟩
  | .hbm, ⟨16, _⟩ => ⟨S1224x1, .bf16⟩
  | .hbm, ⟨17, _⟩ => ⟨S16384x1, .f32⟩
  | .hbm, ⟨18, _⟩ => ⟨S16384x1, .f32⟩
  | .local _ .vmem, ⟨0, _⟩ => ⟨S1024x1024, .f32⟩
  | .local _ .vmem, ⟨1, _⟩ => ⟨S1024x1024, .f32⟩
  | .local _ .vmem, ⟨2, _⟩ => ⟨S2x3x1024, .f32⟩
  | .local _ .vmem, ⟨3, _⟩ => ⟨S2x3x1024, .f32⟩
  | .local _ .vmem, ⟨4, _⟩ => ⟨S1024x500, .bf16⟩
  | .local _ .vmem, ⟨5, _⟩ => ⟨S500, .f32⟩
  | .local _ .vmem, ⟨6, _⟩ => ⟨S500x200, .bf16⟩
  | .local _ .vmem, ⟨7, _⟩ => ⟨S200, .f32⟩
  | .local _ .vmem, ⟨8, _⟩ => ⟨S200x200, .bf16⟩
  | .local _ .vmem, ⟨9, _⟩ => ⟨S200, .f32⟩
  | .local _ .vmem, ⟨10, _⟩ => ⟨S1224x1, .bf16⟩
  | .local _ .vmem, ⟨11, _⟩ => ⟨S1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1224x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x500_S1024x500_0_0 : ∀ a, (![0, 0] : Fin 2 → Nat) a + S1024x500.size a ≤ S1024x500.size a
  h_S1024x500 : 0 < S1024x500.numel
  shapeCasts_S1024x500_S1024x500 : S1024x500.ShapeCasts S1024x500
  inb_S500_S500_0 : ∀ a, (![0] : Fin 1 → Nat) a + S500.size a ≤ S500.size a
  h_S500 : 0 < S500.numel
  shapeCasts_S500_S1x500 : S500.ShapeCasts S1x500
  broadcasts_S1x500_S1024x500 : S1x500.Broadcasts S1024x500
  inb_S500x200_S500x200_0_0 : ∀ a, (![0, 0] : Fin 2 → Nat) a + S500x200.size a ≤ S500x200.size a
  h_S500x200 : 0 < S500x200.numel
  shapeCasts_S500x200_S500x200 : S500x200.ShapeCasts S500x200
  inb_S200_S200_0 : ∀ a, (![0] : Fin 1 → Nat) a + S200.size a ≤ S200.size a
  h_S200 : 0 < S200.numel
  shapeCasts_S200_S1x200 : S200.ShapeCasts S1x200
  broadcasts_S1x200_S1024x200 : S1x200.Broadcasts S1024x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  reduces_S1024x1024_S1024 : S1024x1024.Reduces [1] S1024
  shapeCasts_S1024_S1024x1 : S1024.ShapeCasts S1024x1
  inb_S2x3x1024_S2x3x1024_0_0_0 : ∀ a, (![0, 0, 0] : Fin 3 → Nat) a + S2x3x1024.size a ≤ S2x3x1024.size a
  h_S2x3x1024 : 0 < S2x3x1024.numel
  inb_S1224x1_S1224x1_0_0 : ∀ a, (![0, 0] : Fin 2 → Nat) a + S1224x1.size a ≤ S1224x1.size a
  h_S1224x1 : 0 < S1224x1.numel
  shapeCasts_S1224x1_S1224x1 : S1224x1.ShapeCasts S1224x1
  inb_S1_S1_0 : ∀ a, (![0] : Fin 1 → Nat) a + S1.size a ≤ S1.size a
  h_S1 : 0 < S1.numel
  broadcasts_S1024x1_S1024x1024 : S1024x1.Broadcasts S1024x1024
  slices_S2x3x1024_o0_0_0_S1x1x1024 : S2x3x1024.Slices ![0, 0, 0] S1x1x1024
  shapeCasts_S1x1x1024_S1024 : S1x1x1024.ShapeCasts S1024
  shapeCasts_S1024_S1x1024 : S1024.ShapeCasts S1x1024
  broadcasts_S1x1024_S1024x1024 : S1x1024.Broadcasts S1024x1024
  slices_S2x3x1024_o0_1_0_S1x1x1024 : S2x3x1024.Slices ![0, 1, 0] S1x1x1024
  slices_S2x3x1024_o0_2_0_S1x1x1024 : S2x3x1024.Slices ![0, 2, 0] S1x1x1024
  concatenates_S1024x1024_S1024x200_S1024x1224_d1 : Shape.Concatenates [S1024x1024, S1024x200] S1024x1224 1
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  slices_S2x3x1024_o1_0_0_S1x1x1024 : S2x3x1024.Slices ![1, 0, 0] S1x1x1024
  slices_S2x3x1024_o1_1_0_S1x1x1024 : S2x3x1024.Slices ![1, 1, 0] S1x1x1024
  slices_S2x3x1024_o1_2_0_S1x1x1024 : S2x3x1024.Slices ![1, 2, 0] S1x1x1024
  dot_S1024x1024_S1024x500_S1024x500_1_0_0_1_n_n_wf : DotDims.WF S1024x1024 S1024x500 S1024x500 [1] [0] [0] [1] [] []
  dot_S1024x500_S500x200_S1024x200_1_0_0_1_n_n_wf : DotDims.WF S1024x500 S500x200 S1024x200 [1] [0] [0] [1] [] []
  dot_S1024x200_S200x200_S1024x200_1_0_0_1_n_n_wf : DotDims.WF S1024x200 S200x200 S1024x200 [1] [0] [0] [1] [] []
  dot_S1024x1224_S1224x1_S1024x1_1_0_0_1_n_n_wf : DotDims.WF S1024x1224 S1224x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x3x1024.size a ≤ S2x3x1024.size a
  hwx0_1 : ∀ i : grid0.Coords, EltTy.bits .f32 = 32 ∨ (Rect.block (s := S2x3x1024) S2x3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x3x1024.size a ≤ S2x3x1024.size a
  hwx0_2 : ∀ i : grid0.Coords, EltTy.bits .f32 = 32 ∨ (Rect.block (s := S2x3x1024) S2x3x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x500.size a ≤ S1024x500.size a
  hwx0_3 : ∀ i : grid0.Coords, EltTy.bits .bf16 = 32 ∨ (Rect.block (s := S1024x500) S1024x500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500.size a ≤ S500.size a
  hwx0_4 : ∀ i : grid0.Coords, EltTy.bits .f32 = 32 ∨ (Rect.block (s := S500) S500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x200.size a ≤ S500x200.size a
  hwx0_5 : ∀ i : grid0.Coords, EltTy.bits .bf16 = 32 ∨ (Rect.block (s := S500x200) S500x200.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200.size a ≤ S200.size a
  hwx0_6 : ∀ i : grid0.Coords, EltTy.bits .f32 = 32 ∨ (Rect.block (s := S200) S200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x200.size a ≤ S200x200.size a
  hwx0_7 : ∀ i : grid0.Coords, EltTy.bits .bf16 = 32 ∨ (Rect.block (s := S200x200) S200x200.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200.size a ≤ S200.size a
  hwx0_8 : ∀ i : grid0.Coords, EltTy.bits .f32 = 32 ∨ (Rect.block (s := S200) S200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1224x1.size a ≤ S1224x1.size a
  hwx0_9 : ∀ i : grid0.Coords, EltTy.bits .bf16 = 32 ∨ (Rect.block (s := S1224x1) S1224x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S16384x1.size a
  hwx0_11 : ∀ i : grid0.Coords, EltTy.bits .f32 = 32 ∨ (Rect.block (s := S16384x1) S1024x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S16384x1.size a
  hwx0_12 : ∀ i : grid0.Coords, EltTy.bits .f32 = 32 ∨ (Rect.block (s := S16384x1) S1024x1.size (cc0_transform_12 i) (hinb0_12 i)).WholeWords (EltTy.packing .f32)

variable [Facts₀]

def dot_S1024x1024_S1024x500_S1024x500_1_0_0_1_n_n : DotDims S1024x1024 S1024x500 S1024x500 where
  lhsContracting := [1]
  rhsContracting := [0]
  lhsNonContracting := [0]
  rhsNonContracting := [1]
  lhsBatch := []
  rhsBatch := []
  wf := dot_S1024x1024_S1024x500_S1024x500_1_0_0_1_n_n_wf
def dot_S1024x500_S500x200_S1024x200_1_0_0_1_n_n : DotDims S1024x500 S500x200 S1024x200 where
  lhsContracting := [1]
  rhsContracting := [0]
  lhsNonContracting := [0]
  rhsNonContracting := [1]
  lhsBatch := []
  rhsBatch := []
  wf := dot_S1024x500_S500x200_S1024x200_1_0_0_1_n_n_wf
def dot_S1024x200_S200x200_S1024x200_1_0_0_1_n_n : DotDims S1024x200 S200x200 S1024x200 where
  lhsContracting := [1]
  rhsContracting := [0]
  lhsNonContracting := [0]
  rhsNonContracting := [1]
  lhsBatch := []
  rhsBatch := []
  wf := dot_S1024x200_S200x200_S1024x200_1_0_0_1_n_n_wf
def dot_S1024x1224_S1224x1_S1024x1_1_0_0_1_n_n : DotDims S1024x1224 S1224x1 S1024x1 where
  lhsContracting := [1]
  rhsContracting := [0]
  lhsNonContracting := [0]
  rhsNonContracting := [1]
  lhsBatch := []
  rhsBatch := []
  wf := dot_S1024x1224_S1224x1_S1024x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S2x3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S2x3x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S500x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S200x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1224x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S1024x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S1000x16 : Shape := ⟨2, ![1000, 16]⟩
abbrev S1024x500 : Shape := ⟨2, ![1024, 500]⟩
abbrev S500 : Shape := ⟨1, ![500]⟩
abbrev S500x200 : Shape := ⟨2, ![500, 200]⟩
abbrev S200 : Shape := ⟨1, ![200]⟩
abbrev S200x200 : Shape := ⟨2, ![200, 200]⟩
abbrev S1224x1 : Shape := ⟨2, ![1224, 1]⟩
abbrev S1 : Shape := ⟨1, ![1]⟩
abbrev S2x3x1024 : Shape := ⟨3, ![2, 3, 1024]⟩
abbrev S16384x500 : Shape := ⟨2, ![16384, 500]⟩
abbrev S1x500 : Shape := ⟨2, ![1, 500]⟩
abbrev S_ : Shape := ⟨0, ![]⟩
abbrev S16384x200 : Shape := ⟨2, ![16384, 200]⟩
abbrev S1x200 : Shape := ⟨2, ![1, 200]⟩
abbrev S16384x1 : Shape := ⟨2, ![16384, 1]⟩
abbrev S1x1x1024 : Shape := ⟨3, ![1, 1, 1024]⟩
abbrev S1024 : Shape := ⟨1, ![1024]⟩
abbrev S1x1024 : Shape := ⟨2, ![1, 1024]⟩
abbrev S16384x1224 : Shape := ⟨2, ![16384, 1224]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S16384x1024, .f32⟩
  | 1 => ⟨S16384, .i32⟩
  | 2 => ⟨S1000x16, .f32⟩
  | 3 => ⟨S1024x500, .f32⟩
  | 4 => ⟨S500, .f32⟩
  | 5 => ⟨S500x200, .f32⟩
  | 6 => ⟨S200, .f32⟩
  | 7 => ⟨S200x200, .f32⟩
  | 8 => ⟨S200, .f32⟩
  | 9 => ⟨S1224x1, .f32⟩
  | 10 => ⟨S1, .f32⟩
  | 11 => ⟨S2x3x1024, .f32⟩
  | 12 => ⟨S2x3x1024, .f32⟩
  | 13 => ⟨S16384x500, .f32⟩
  | 14 => ⟨S1x500, .f32⟩
  | 15 => ⟨S16384x500, .f32⟩
  | 16 => ⟨S16384x500, .f32⟩
  | 17 => ⟨S_, .f32⟩
  | 18 => ⟨S16384x500, .f32⟩
  | 19 => ⟨S16384x500, .f32⟩
  | 20 => ⟨S16384x200, .f32⟩
  | 21 => ⟨S1x200, .f32⟩
  | 22 => ⟨S16384x200, .f32⟩
  | 23 => ⟨S16384x200, .f32⟩
  | 24 => ⟨S_, .f32⟩
  | 25 => ⟨S16384x200, .f32⟩
  | 26 => ⟨S16384x200, .f32⟩
  | 27 => ⟨S16384x200, .f32⟩
  | 28 => ⟨S1x200, .f32⟩
  | 29 => ⟨S16384x200, .f32⟩
  | 30 => ⟨S16384x200, .f32⟩
  | 31 => ⟨S_, .f32⟩
  | 32 => ⟨S16384x200, .f32⟩
  | 33 => ⟨S16384x200, .f32⟩
  | 34 => ⟨S_, .f32⟩
  | 35 => ⟨S16384, .f32⟩
  | 36 => ⟨S16384x1, .f32⟩
  | 37 => ⟨S16384x1024, .f32⟩
  | 38 => ⟨S16384x1024, .f32⟩
  | 39 => ⟨S1x1x1024, .f32⟩
  | 40 => ⟨S1024, .f32⟩
  | 41 => ⟨S1x1024, .f32⟩
  | 42 => ⟨S16384x1024, .f32⟩
  | 43 => ⟨S16384x1024, .f32⟩
  | 44 => ⟨S1x1x1024, .f32⟩
  | 45 => ⟨S1024, .f32⟩
  | 46 => ⟨S1x1024, .f32⟩
  | 47 => ⟨S16384x1024, .f32⟩
  | 48 => ⟨S16384x1024, .f32⟩
  | 49 => ⟨S16384x1024, .f32⟩
  | 50 => ⟨S16384x1024, .f32⟩
  | 51 => ⟨S16384x1024, .f32⟩
  | 52 => ⟨S1x1x1024, .f32⟩
  | 53 => ⟨S1024, .f32⟩
  | 54 => ⟨S1x1024, .f32⟩
  | 55 => ⟨S16384x1024, .f32⟩
  | 56 => ⟨S16384x1024, .f32⟩
  | 57 => ⟨S1x1x1024, .f32⟩
  | 58 => ⟨S1024, .f32⟩
  | 59 => ⟨S1x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S1x1x1024, .f32⟩
  | 66 => ⟨S1024, .f32⟩
  | 67 => ⟨S1x1024, .f32⟩
  | 68 => ⟨S16384x1024, .f32⟩
  | 69 => ⟨S16384x1024, .f32⟩
  | 70 => ⟨S1x1x1024, .f32⟩
  | 71 => ⟨S1024, .f32⟩
  | 72 => ⟨S1x1024, .f32⟩
  | 73 => ⟨S16384x1024, .f32⟩
  | 74 => ⟨S16384x1024, .f32⟩
  | 75 => ⟨S16384x1024, .f32⟩
  | 76 => ⟨S16384x1224, .f32⟩
  | 77 => ⟨S16384x1, .f32⟩
  | 78 => ⟨S1x1, .f32⟩
  | 79 => ⟨S16384x1, .f32⟩
  | 80 => ⟨S16384x1, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384x1, .f32⟩
  | 88 => ⟨S16384x1, .f32⟩
  | 89 => ⟨S16384x1024, .f32⟩
  | 90 => ⟨S16384x1024, .f32⟩
  | 91 => ⟨S1x1x1024, .f32⟩
  | 92 => ⟨S1024, .f32⟩
  | 93 => ⟨S1x1024, .f32⟩
  | 94 => ⟨S16384x1024, .f32⟩
  | 95 => ⟨S16384x1024, .f32⟩
  | 96 => ⟨S1x1x1024, .f32⟩
  | 97 => ⟨S1024, .f32⟩
  | 98 => ⟨S1x1024, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S1x1x1024, .f32⟩
  | 105 => ⟨S1024, .f32⟩
  | 106 => ⟨S1x1024, .f32⟩
  | 107 => ⟨S16384x1024, .f32⟩
  | 108 => ⟨S16384x1024, .f32⟩
  | 109 => ⟨S1x1x1024, .f32⟩
  | 110 => ⟨S1024, .f32⟩
  | 111 => ⟨S1x1024, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S1x1x1024, .f32⟩
  | 118 => ⟨S1024, .f32⟩
  | 119 => ⟨S1x1024, .f32⟩
  | 120 => ⟨S16384x1024, .f32⟩
  | 121 => ⟨S16384x1024, .f32⟩
  | 122 => ⟨S1x1x1024, .f32⟩
  | 123 => ⟨S1024, .f32⟩
  | 124 => ⟨S1x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1224, .f32⟩
  | 1 => ⟨S16384x1, .f32⟩
  | 2 => ⟨S1x1, .f32⟩
  | 3 => ⟨S16384x1, .f32⟩
  | 4 => ⟨S16384x1, .f32⟩
  | 5 => ⟨S16384x1, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_0 : Ref sig .tc := ⟨.hbm, 83, rfl⟩
abbrev main_v63 : Ref sig .tc := ⟨.hbm, 84, rfl⟩
abbrev main_v64 : Ref sig .tc := ⟨.hbm, 85, rfl⟩
abbrev main_cst_1 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_2 : Ref sig .tc := ⟨.hbm, 135, rfl⟩
abbrev main_v113 : Ref sig .tc := ⟨.hbm, 136, rfl⟩
abbrev main_v114 : Ref sig .tc := ⟨.hbm, 137, rfl⟩
abbrev main_cst_3 : Ref sig .tc := ⟨.hbm, 138, rfl⟩
abbrev main_v115 : Ref sig .tc := ⟨.hbm, 139, rfl⟩
abbrev main_v116 : Ref sig .tc := ⟨.hbm, 140, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S16384x500_0_1 : S1x500.BroadcastsInDim S16384x500 (![0, 1] : Fin 2 → Fin S16384x500.rank)
  bcast_S_S16384x500 : S_.BroadcastsInDim S16384x500 (![] : Fin 0 → Fin S16384x500.rank)
  bcast_S200_S1x200_1 : S200.BroadcastsInDim S1x200 (![1] : Fin 1 → Fin S1x200.rank)
  bcast_S1x200_S16384x200_0_1 : S1x200.BroadcastsInDim S16384x200 (![0, 1] : Fin 2 → Fin S16384x200.rank)
  bcast_S_S16384x200 : S_.BroadcastsInDim S16384x200 (![] : Fin 0 → Fin S16384x200.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  slices_S2x3x1024_S1x1x1024_0_0_0 : S2x3x1024.Slices ![0, 0, 0] S1x1x1024
  shapeCasts_S1x1x1024_S1024 : S1x1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S2x3x1024_S1x1x1024_0_1_0 : S2x3x1024.Slices ![0, 1, 0] S1x1x1024
  slices_S2x3x1024_S1x1x1024_0_2_0 : S2x3x1024.Slices ![0, 2, 0] S1x1x1024
  concatenates_S16384x1024_S16384x200_S16384x1224_d1 : Shape.Concatenates [S16384x1024, S16384x200] S16384x1224 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  slices_S2x3x1024_S1x1x1024_1_0_0 : S2x3x1024.Slices ![1, 0, 0] S1x1x1024
  slices_S2x3x1024_S1x1x1024_1_1_0 : S2x3x1024.Slices ![1, 1, 0] S1x1x1024
  slices_S2x3x1024_S1x1x1024_1_2_0 : S2x3x1024.Slices ![1, 2, 0] S1x1x1024
  dot_S16384x1024_S1024x500_S16384x500_1_0_0_1_n_n_wf : DotDims.WF S16384x1024 S1024x500 S16384x500 [1] [0] [0] [1] [] []
  dot_S16384x500_S500x200_S16384x200_1_0_0_1_n_n_wf : DotDims.WF S16384x500 S500x200 S16384x200 [1] [0] [0] [1] [] []
  dot_S16384x200_S200x200_S16384x200_1_0_0_1_n_n_wf : DotDims.WF S16384x200 S200x200 S16384x200 [1] [0] [0] [1] [] []
  dot_S16384x1224_S1224x1_S16384x1_1_0_0_1_n_n_wf : DotDims.WF S16384x1224 S1224x1 S16384x1 [1] [0] [0] [1] [] []

variable [Facts₀]

def dot_S16384x1024_S1024x500_S16384x500_1_0_0_1_n_n : DotDims S16384x1024 S1024x500 S16384x500 where
  lhsContracting := [1]
  rhsContracting := [0]
  lhsNonContracting := [0]
  rhsNonContracting := [1]
  lhsBatch := []
  rhsBatch := []
  wf := dot_S16384x1024_S1024x500_S16384x500_1_0_0_1_n_n_wf
def dot_S16384x500_S500x200_S16384x200_1_0_0_1_n_n : DotDims S16384x500 S500x200 S16384x200 where
  lhsContracting := [1]
  rhsContracting := [0]
  lhsNonContracting := [0]
  rhsNonContracting := [1]
  lhsBatch := []
  rhsBatch := []
  wf := dot_S16384x500_S500x200_S16384x200_1_0_0_1_n_n_wf
def dot_S16384x200_S200x200_S16384x200_1_0_0_1_n_n : DotDims S16384x200 S200x200 S16384x200 where
  lhsContracting := [1]
  rhsContracting := [0]
  lhsNonContracting := [0]
  rhsNonContracting := [1]
  lhsBatch := []
  rhsBatch := []
  wf := dot_S16384x200_S200x200_S16384x200_1_0_0_1_n_n_wf
def dot_S16384x1224_S1224x1_S16384x1_1_0_0_1_n_n : DotDims S16384x1224 S1224x1 S16384x1 where
  lhsContracting := [1]
  rhsContracting := [0]
  lhsNonContracting := [0]
  rhsNonContracting := [1]
  lhsBatch := []
  rhsBatch := []
  wf := dot_S16384x1224_S1224x1_S16384x1_1_0_0_1_n_n_wf

class Facts : Prop extends Facts₀ where

variable [Facts]
-- ==== Proof.LibMatmulPlain.lean ====
/-
  A plain matrix product read entry by entry over the extended reals.

  For the dimension numbers `DotDims.plain M K N` — an [M, K] operand times a [K, N] operand, the left operand's last axis
  contracted with the right operand's first, no batch axis — the product's entry (r, s) is the sum over k of
  lhs[r, k] · rhs[k, s]. This holds of the vector unit's product into a zero accumulator (`matmul_zero_apply`) and of the
  host's product (`dotGeneral_apply`) alike: exact arithmetic has neither rounding nor an order of summation, so the two are
  one sum, indexed here by the contracted coordinate itself (`Fin K`) rather than by the dimension numbers' own
  contraction-index type.
-/
import Idealize.ShloMosaic.PureOps.Ideal.Laws
import Idealize.ShloMosaic.Lib.ValueIdx

namespace Cert.Lib.MatmulPlain

open Idealize.ShloMosaic

variable (M K N : Nat)

/-- The left operand's index that output entry `j` meets at contraction position `k`: row `j 0`, column `k`. -/
abbrev lix (j : (⟨2, ![M, N]⟩ : Shape).Idx) (k : Fin K) : (⟨2, ![M, K]⟩ : Shape).Idx := fun a => match a with
  | ⟨0, _⟩ => ⟨(j 0).val, (j 0).isLt⟩
  | ⟨1, _⟩ => ⟨k.val, k.isLt⟩

/-- The right operand's index that output entry `j` meets at contraction position `k`: row `k`, column `j 1`. -/
abbrev rix (j : (⟨2, ![M, N]⟩ : Shape).Idx) (k : Fin K) : (⟨2, ![K, N]⟩ : Shape).Idx := fun a => match a with
  | ⟨0, _⟩ => ⟨k.val, k.isLt⟩
  | ⟨1, _⟩ => ⟨(j 1).val, (j 1).isLt⟩

/-- The left index keeps the output's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left index's column is the contraction position. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right index's row is the contraction position. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right index keeps the output's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The dimension numbers' sum over their own contraction index is the sum over the contracted coordinate. -/
theorem sum_contr (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (lix M K N j k) * rhs (rix M K N j k) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx j ((ValueIdx.contrEquiv1 (DotDims.plain M K N) K rfl rfl).symm k) = lix M K N j k :=
    funext fun a => Fin.ext (by
      match a with
      | ⟨0, _⟩ => exact lhs_0 M K N _ _
      | ⟨1, _⟩ => exact (lhs_1 M K N _ _).trans hk)
  have er : (DotDims.plain M K N).rhsIdx j ((ValueIdx.contrEquiv1 (DotDims.plain M K N) K rfl rfl).symm k) = rix M K N j k :=
    funext fun a => Fin.ext (by
      match a with
      | ⟨0, _⟩ => exact (rhs_0 M K N _ _).trans hk
      | ⟨1, _⟩ => exact rhs_1 M K N _ _)
  rw [el, er]

/-- The host's plain product at entry `j`: the sum over `k` of lhs[j 0, k] · rhs[k, j 1]. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (lix M K N j k) * rhs (rix M K N j k) := by
  rw [Ideal.dotGeneral_apply]
  exact sum_contr M K N lhs rhs j

/-- The vector unit's plain product into a zero accumulator at entry `j`: the same sum. -/
theorem matmul_zero_apply {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (lix M K N j k) * rhs (rix M K N j k) := by
  rw [Ideal.matmul_constant_zero_apply]
  exact sum_contr M K N lhs rhs j

end Cert.Lib.MatmulPlain
-- ==== Proof.LibRows.lean ====
/-
  Row blocks of two-dimensional arrays over the extended reals.

  `RowsOf o a A` says that the [B, K] array `a` is the block of rows o, o+1, …, o+B-1 of the [M, K] array `A`:
  entry (p, k) of `a` is entry (o+p, k) of `A`. Every operation that acts row by row sends blocks to blocks: a
  pointwise operation of two arrays; a product with one shared right operand (row p of the product needs only row p of
  the left operand); a row vector repeated down the rows, or a column repeated along them; two arrays joined side by
  side; the logistic function entry by entry. So a computation made of such steps, run on a block of rows, yields the
  block of what the same computation yields on the whole array — which is how a kernel that walks an array in row tiles
  meets a reference that works on the array at once. The block side is written with the vector unit's operations, the
  whole-array side with the host's.
-/
import Idealize.ShloMosaic.PureOps.Ideal.Laws
import Idealize.ShloMosaic.PureOps.IdealRules
import Idealize.ShloMosaic.Lib.ValueIdx
import Idealize.ShloMosaic.Lib.Pipeline.Value
import proofs.«117011_j12816182411985_1_alg».proof.Proof.LibMatmulPlain

namespace Cert.Lib.Rows

open Idealize.ShloMosaic Cert.Lib.MatmulPlain

/-- The index (r, c) of a two-dimensional array, from its two coordinates as numbers. -/
abbrev mk2 {n0 n1 : Nat} (r c : Nat) (hr : r < n0) (hc : c < n1) : (⟨2, ![n0, n1]⟩ : Shape).Idx := fun a => match a with
  | ⟨0, _⟩ => ⟨r, hr⟩
  | ⟨1, _⟩ => ⟨c, hc⟩

/-- `a` holds rows `o, o+1, …` of `A`: entry (p, k) of `a` is entry (o+p, k) of `A`. -/
def RowsOf (o : Nat) {B M K : Nat} (a : (⟨2, ![B, K]⟩ : Shape).Idx → EReal) (A : (⟨2, ![M, K]⟩ : Shape).Idx → EReal) : Prop :=
  ∀ (y : (⟨2, ![B, K]⟩ : Shape).Idx) (i : (⟨2, ![M, K]⟩ : Shape).Idx),
    (i 0).val = o + (y 0).val → (i 1).val = (y 1).val → a y = A i

variable {o B M K N : Nat}

/-- A change of float format keeps every entry (exact arithmetic has one format), so it keeps blocks. -/
theorem RowsOf.truncf {φ ψ : FTy} {a : FVec Ideal ⟨2, ![B, K]⟩ φ} {A : (⟨2, ![M, K]⟩ : Shape).Idx → EReal}
    (ha : RowsOf o a A) (h : ψ.bits < φ.bits) : RowsOf o (Idealize.ShloMosaic.truncf ψ a h) A := ha

/-- A cast of an array to its own shape keeps every entry. -/
theorem shapeCast_self_eq {s : Shape} {w W : s.Idx → EReal} (hw : ∀ q, w q = W q) (h : s.ShapeCasts s) (q : s.Idx) :
    shapeCast s w h q = W q := (congrFun (shapeCast_self w h) q).trans (hw q)

/-- Sums of blocks are blocks of sums. -/
theorem RowsOf.addf {a b : FVec Ideal ⟨2, ![B, K]⟩ .f32} {A A' : FVec Ideal ⟨2, ![M, K]⟩ .f32}
    (ha : RowsOf o a A) (hb : RowsOf o b A') : RowsOf o (addf a b) (addf A A') :=
  fun y i h0 h1 => by
    show a y + b y = A i + A' i
    rw [ha y i h0 h1, hb y i h0 h1]

/-- Products of blocks, entry by entry, are blocks of such products. -/
theorem RowsOf.mulf {a b : FVec Ideal ⟨2, ![B, K]⟩ .f32} {A A' : FVec Ideal ⟨2, ![M, K]⟩ .f32}
    (ha : RowsOf o a A) (hb : RowsOf o b A') : RowsOf o (mulf a b) (mulf A A') :=
  fun y i h0 h1 => by
    show a y * b y = A i * A' i
    rw [ha y i h0 h1, hb y i h0 h1]

/-- The larger of two blocks, entry by entry, is the block of the larger of the two arrays. -/
theorem RowsOf.maximumf {a b : FVec Ideal ⟨2, ![B, K]⟩ .f32} {A A' : FVec Ideal ⟨2, ![M, K]⟩ .f32}
    (ha : RowsOf o a A) (hb : RowsOf o b A') : RowsOf o (maximumf a b) (maximumf A A') :=
  fun y i h0 h1 => by
    show max (a y) (b y) = max (A i) (A' i)
    rw [ha y i h0 h1, hb y i h0 h1]

/-- A block of rows times a matrix is the block of rows of the whole product with that matrix: row p of a product
    is the sum over k of the left operand's row p against the right operand's column. -/
theorem RowsOf.matmul_dot {φ₁ φ₂ ψ₁ ψ₂ : FTy} (prec prec' : Option ContractPrecision) (sched : HostSchedule)
    {a : FVec Ideal ⟨2, ![B, K]⟩ φ₁} {A : FVec Ideal ⟨2, ![M, K]⟩ ψ₁}
    {w : FVec Ideal ⟨2, ![K, N]⟩ φ₂} {W : FVec Ideal ⟨2, ![K, N]⟩ ψ₂}
    (ha : RowsOf o a A) (hw : ∀ q, w q = W q) :
    RowsOf o (FloatOps.matmul (DotDims.plain B K N) prec a w (constant ⟨2, ![B, N]⟩ .f32 0x00000000#32))
      (FloatOps.dotGeneral (DotDims.plain M K N) prec' sched A W) :=
  fun y i h0 h1 => by
    rw [matmul_zero_apply, dotGeneral_apply]
    refine Finset.sum_congr rfl fun k _ => ?_
    have e1 : a (lix B K N y k) = A (lix M K N i k) := ha _ _ h0 rfl
    have e2 : rix B K N y k = rix M K N i k := funext fun ax => Fin.ext (by
      match ax with
      | ⟨0, _⟩ => rfl
      | ⟨1, _⟩ => exact h1.symm)
    rw [e1, hw, e2]

/-- One row repeated down the rows: any block of rows of it is the same row repeated. -/
theorem RowsOf.bcastRow {r r' : (⟨2, ![1, N]⟩ : Shape).Idx → EReal} (hr : ∀ q, r q = r' q)
    (h : (⟨2, ![1, N]⟩ : Shape).Broadcasts ⟨2, ![B, N]⟩)
    (dims : Fin (⟨2, ![1, N]⟩ : Shape).rank → Fin (⟨2, ![M, N]⟩ : Shape).rank) (hd0 : dims 0 = 0) (hd1 : dims 1 = 1)
    (h' : (⟨2, ![1, N]⟩ : Shape).BroadcastsInDim ⟨2, ![M, N]⟩ dims) :
    RowsOf o (broadcastTo ⟨2, ![B, N]⟩ r h) (broadcastInDim ⟨2, ![M, N]⟩ dims h' r') :=
  fun y i _ h1 => by
    have hy : (y 1).val < N := (y 1).isLt
    have e1 : broadcastTo ⟨2, ![B, N]⟩ r h y = r (mk2 0 (y 1).val Nat.one_pos hy) :=
      broadcastTo_apply r h y _ fun ax => by
        match ax with
        | ⟨0, _⟩ => exact (if_pos rfl).symm
        | ⟨1, _⟩ =>
          show (y 1).val = if N = 1 then 0 else (y 1).val
          split
          · omega
          · rfl
    have e2 : broadcastInDim ⟨2, ![M, N]⟩ dims h' r' i = r' (mk2 0 (y 1).val Nat.one_pos hy) :=
      broadcastInDim_apply dims h' r' i _ fun ax => by
        match ax with
        | ⟨0, _⟩ => exact (if_pos rfl).symm
        | ⟨1, _⟩ =>
          show (y 1).val = if N = 1 then 0 else (i (dims 1)).val
          rw [hd1, h1]
          split
          · omega
          · rfl
    rw [e1, e2, hr]

/-- One column repeated along the rows: the block of rows of it is the block of the column, repeated. -/
theorem RowsOf.bcastCol {a : (⟨2, ![B, 1]⟩ : Shape).Idx → EReal} {A : (⟨2, ![M, 1]⟩ : Shape).Idx → EReal}
    (ha : RowsOf o a A)
    (h : (⟨2, ![B, 1]⟩ : Shape).Broadcasts ⟨2, ![B, K]⟩)
    (dims : Fin (⟨2, ![M, 1]⟩ : Shape).rank → Fin (⟨2, ![M, K]⟩ : Shape).rank) (hd0 : dims 0 = 0) (hd1 : dims 1 = 1)
    (h' : (⟨2, ![M, 1]⟩ : Shape).BroadcastsInDim ⟨2, ![M, K]⟩ dims) :
    RowsOf o (broadcastTo ⟨2, ![B, K]⟩ a h) (broadcastInDim ⟨2, ![M, K]⟩ dims h' A) :=
  fun y i h0 _ => by
    have hy : (y 0).val < B := (y 0).isLt
    have hi : (i 0).val < M := (i 0).isLt
    have e1 : broadcastTo ⟨2, ![B, K]⟩ a h y = a (mk2 (y 0).val 0 hy Nat.one_pos) :=
      broadcastTo_apply a h y _ fun ax => by
        match ax with
        | ⟨0, _⟩ =>
          show (y 0).val = if B = 1 then 0 else (y 0).val
          split
          · omega
          · rfl
        | ⟨1, _⟩ => exact (if_pos rfl).symm
    have e2 : broadcastInDim ⟨2, ![M, K]⟩ dims h' A i = A (mk2 (i 0).val 0 hi Nat.one_pos) :=
      broadcastInDim_apply dims h' A i _ fun ax => by
        match ax with
        | ⟨0, _⟩ =>
          show (i 0).val = if M = 1 then 0 else (i (dims 0)).val
          rw [hd0]
          split
          · omega
          · rfl
        | ⟨1, _⟩ => exact (if_pos rfl).symm
    rw [e1, e2]
    exact ha _ _ h0 rfl

/-- A vector laid out as one row, by the vector unit's cast and by the host's broadcast: the same row. -/
theorem row_of_vec {v V : (⟨1, ![N]⟩ : Shape).Idx → EReal} (hv : ∀ q, v q = V q)
    (h : (⟨1, ![N]⟩ : Shape).ShapeCasts ⟨2, ![1, N]⟩)
    (dims : Fin (⟨1, ![N]⟩ : Shape).rank → Fin (⟨2, ![1, N]⟩ : Shape).rank) (hd : dims 0 = 1)
    (h' : (⟨1, ![N]⟩ : Shape).BroadcastsInDim ⟨2, ![1, N]⟩ dims) (q : (⟨2, ![1, N]⟩ : Shape).Idx) :
    shapeCast ⟨2, ![1, N]⟩ v h q = broadcastInDim ⟨2, ![1, N]⟩ dims h' V q := by
  have hq0 : (q 0).val < 1 := (q 0).isLt
  have hq1 : (q 1).val < N := (q 1).isLt
  have e1 : shapeCast ⟨2, ![1, N]⟩ v h q = v (ValueIdx.ix1 ⟨(q 1).val, hq1⟩) :=
    shapeCast_apply v h q _ (by
      rw [Shape.rowMajor_val_two, Shape.rowMajor_val_one]
      show (q 1).val = (q 0).val * N + (q 1).val
      have : (q 0).val = 0 := by omega
      rw [this, Nat.zero_mul, Nat.zero_add])
  have e2 : broadcastInDim ⟨2, ![1, N]⟩ dims h' V q = V (ValueIdx.ix1 ⟨(q 1).val, hq1⟩) :=
    broadcastInDim_apply dims h' V q _ fun ax => by
      match ax with
      | ⟨0, _⟩ =>
        show (q 1).val = if N = 1 then 0 else (q (dims 0)).val
        rw [hd]
        split
        · omega
        · rfl
  rw [e1, e2, hv]

/-- A constant array, splat by the vector unit or broadcast from a scalar by the host: every block of the one is the other. -/
theorem RowsOf.const (z : EReal) {c : (⟨0, ![]⟩ : Shape).Idx → EReal} (hc : ∀ q, c q = z)
    (dims : Fin (⟨0, ![]⟩ : Shape).rank → Fin (⟨2, ![M, K]⟩ : Shape).rank)
    (h' : (⟨0, ![]⟩ : Shape).BroadcastsInDim ⟨2, ![M, K]⟩ dims) :
    RowsOf (B := B) o (broadcast ⟨2, ![B, K]⟩ z) (broadcastInDim ⟨2, ![M, K]⟩ dims h' c) :=
  fun _ i _ _ => by
    show z = _
    rw [broadcastInDim_apply dims h' c i (fun ax => ax.elim0) (fun ax => ax.elim0), hc]

/-- Two blocks of rows side by side are the block of rows of the two arrays side by side. -/
theorem RowsOf.concat {K₁ K₂ : Nat} {a₁ : (⟨2, ![B, K₁]⟩ : Shape).Idx → EReal} {a₂ : (⟨2, ![B, K₂]⟩ : Shape).Idx → EReal}
    {A₁ : (⟨2, ![M, K₁]⟩ : Shape).Idx → EReal} {A₂ : (⟨2, ![M, K₂]⟩ : Shape).Idx → EReal}
    (h₁ : RowsOf o a₁ A₁) (h₂ : RowsOf o a₂ A₂)
    (h : Shape.Concatenates [(⟨2, ![B, K₁]⟩ : Shape), ⟨2, ![B, K₂]⟩] ⟨2, ![B, K]⟩ 1)
    (h' : Shape.Concatenates [(⟨2, ![M, K₁]⟩ : Shape), ⟨2, ![M, K₂]⟩] ⟨2, ![M, K]⟩ 1) :
    RowsOf o (concatenate ⟨2, ![B, K]⟩ 1 [⟨⟨2, ![B, K₁]⟩, a₁⟩, ⟨⟨2, ![B, K₂]⟩, a₂⟩] h)
      (concatenate ⟨2, ![M, K]⟩ 1 [⟨⟨2, ![M, K₁]⟩, A₁⟩, ⟨⟨2, ![M, K₂]⟩, A₂⟩] h') :=
  fun y i h0 h1 => by
    have hy0 : (y 0).val < B := (y 0).isLt
    have hi0 : (i 0).val < M := (i 0).isLt
    have hy1 : (y 1).val < K := (y 1).isLt
    have hK : K₁ + K₂ = K := by
      have e := h.2.2
      simpa using e
    by_cases hlt : (y 1).val < K₁
    · have e1 := concatenate_pair_apply_left (1 : Fin (⟨2, ![B, K]⟩ : Shape).rank) a₁ a₂ h y rfl
        (mk2 (y 0).val (y 1).val hy0 hlt) (fun b => by
          match b with
          | ⟨0, _⟩ => rfl
          | ⟨1, _⟩ => rfl)
      have e2 := concatenate_pair_apply_left (1 : Fin (⟨2, ![M, K]⟩ : Shape).rank) A₁ A₂ h' i rfl
        (mk2 (i 0).val (y 1).val hi0 hlt) (fun b => by
          match b with
          | ⟨0, _⟩ => rfl
          | ⟨1, _⟩ => exact h1.symm)
      rw [e1, e2]
      exact h₁ _ _ h0 rfl
    · have hge : K₁ ≤ (y 1).val := Nat.le_of_not_lt hlt
      have hsub : (y 1).val - K₁ < K₂ := by omega
      have e1 := concatenate_pair_apply_right (1 : Fin (⟨2, ![B, K]⟩ : Shape).rank) a₁ a₂ h y rfl rfl
        (mk2 (y 0).val ((y 1).val - K₁) hy0 hsub) (fun b hb => by
          match b with
          | ⟨0, _⟩ => rfl
          | ⟨1, _⟩ => exact absurd rfl hb) (by
          show (y 1).val - K₁ + K₁ = (y 1).val
          omega)
      have e2 := concatenate_pair_apply_right (1 : Fin (⟨2, ![M, K]⟩ : Shape).rank) A₁ A₂ h' i rfl rfl
        (mk2 (i 0).val ((y 1).val - K₁) hi0 hsub) (fun b hb => by
          match b with
          | ⟨0, _⟩ => rfl
          | ⟨1, _⟩ => exact absurd rfl hb) (by
          show (y 1).val - K₁ + K₁ = (i 1).val
          omega)
      rw [e1, e2]
      exact h₂ _ _ h0 rfl

/-- Row sums: the column of the row sums of a block of rows is the block of the column of the array's row sums
    (a row's sum needs only that row; the host starts its sum from a zero, which adds nothing). -/
theorem RowsOf.rowsum {a : FVec Ideal ⟨2, ![B, K]⟩ .f32} {A : FVec Ideal ⟨2, ![M, K]⟩ .f32} (ha : RowsOf o a A)
    (hR : (⟨2, ![B, K]⟩ : Shape).Reduces [1] ⟨1, ![B]⟩) (hφ : FKind.Formats .f32)
    (hacc : (0x00000000#32 : BitVec 32) = FKind.add.neutral .f32 hφ)
    (hC : (⟨1, ![B]⟩ : Shape).ShapeCasts ⟨2, ![B, 1]⟩)
    {c : (⟨0, ![]⟩ : Shape).Idx → EReal} (hc : ∀ q, c q = 0)
    (hT : (⟨2, ![M, K]⟩ : Shape).ReducesTo [1] ⟨1, ![M]⟩) (hR' : (⟨2, ![M, K]⟩ : Shape).Reduces [1] ⟨1, ![M]⟩)
    (hu : 0 < (⟨0, ![]⟩ : Shape).numel)
    (dims : Fin (⟨1, ![M]⟩ : Shape).rank → Fin (⟨2, ![M, 1]⟩ : Shape).rank) (hd : dims 0 = 0)
    (hBc : (⟨1, ![M]⟩ : Shape).BroadcastsInDim ⟨2, ![M, 1]⟩ dims) :
    RowsOf o (shapeCast ⟨2, ![B, 1]⟩ (multiReduction .add [1] ⟨1, ![B]⟩ a 0x00000000#32 hR hφ hacc) hC)
      (broadcastInDim ⟨2, ![M, 1]⟩ dims hBc (Host.reduceAdd A c hT hu)) :=
  fun y i h0 _ => by
    have hy0 : (y 0).val < B := (y 0).isLt
    have hy1 : (y 1).val < 1 := (y 1).isLt
    have hi0 : (i 0).val < M := (i 0).isLt
    have e1 : shapeCast ⟨2, ![B, 1]⟩ (multiReduction .add [1] ⟨1, ![B]⟩ a 0x00000000#32 hR hφ hacc) hC y
        = multiReduction .add [1] ⟨1, ![B]⟩ a 0x00000000#32 hR hφ hacc (ValueIdx.ix1 ⟨(y 0).val, hy0⟩) :=
      shapeCast_apply _ hC y _ (by
        rw [Shape.rowMajor_val_two, Shape.rowMajor_val_one]
        show (y 0).val = (y 0).val * 1 + (y 1).val
        omega)
    have e2 : broadcastInDim ⟨2, ![M, 1]⟩ dims hBc (Host.reduceAdd A c hT hu) i
        = Host.reduceAdd A c hT hu (ValueIdx.ix1 ⟨(i 0).val, hi0⟩) :=
      broadcastInDim_apply dims hBc _ i _ fun ax => by
        match ax with
        | ⟨0, _⟩ =>
          show (i 0).val = if M = 1 then 0 else (i (dims 0)).val
          rw [hd]
          split
          · omega
          · rfl
    rw [e1, e2, Ideal.multiReduction_add_single]
    show _ = Ideal.hostReduceAdd hT A (c _) _
    rw [Ideal.hostReduceAdd_single hT hR', hc, zero_add]
    refine Finset.sum_congr rfl fun k _ => ha _ _ ?_ ?_
    · exact h0
    · rfl

/-- The pattern of the number one denotes one. -/
theorem ofBits_one : Ideal.ofBits .f32 0x3F800000#32 = 1 := IdealRules.sign_bit.ideal_onePat .f32

/-- A scalar broadcast to an array reads the scalar at every index. -/
theorem bcast_scalar_apply {t : Shape} (dims : Fin (⟨0, ![]⟩ : Shape).rank → Fin t.rank)
    (h' : (⟨0, ![]⟩ : Shape).BroadcastsInDim t dims) (c : (⟨0, ![]⟩ : Shape).Idx → EReal) (q : t.Idx) :
    broadcastInDim t dims h' c q = c (fun ax => ax.elim0) :=
  broadcastInDim_apply dims h' c q (fun ax => ax.elim0) (fun ax => ax.elim0)

/-- The number one, broadcast from the host's scalar constant, is one at every index. -/
theorem bcast_one_apply {t : Shape} (dims : Fin (⟨0, ![]⟩ : Shape).rank → Fin t.rank)
    (h' : (⟨0, ![]⟩ : Shape).BroadcastsInDim t dims) (q : t.Idx) :
    broadcastInDim t dims h' (constant (F := Ideal) ⟨0, ![]⟩ .f32 0x3F800000#32) q = 1 :=
  (bcast_scalar_apply dims h' _ q).trans ofBits_one

/-- The logistic function of a block, and the host's 1 / (1 + e^(-x)) of the whole array: the same function entry by entry. -/
theorem RowsOf.logistic {a : FVec Ideal ⟨2, ![B, K]⟩ .f32} {A one one' : FVec Ideal ⟨2, ![M, K]⟩ .f32}
    (ha : RowsOf o a A) (h1 : ∀ q, one q = 1) (h1' : ∀ q, one' q = 1) :
    RowsOf o (logistic a) (Host.divf one (Idealize.ShloMosaic.addf one' (Host.exp (Host.negf A)))) :=
  fun y i h0 hc => by
    show Ideal.logistic (a y) = Ideal.div (one i) (one' i + Ideal.exp (-(A i)))
    rw [ha y i h0 hc, h1, h1']
    rfl

end Cert.Lib.Rows
-- ==== Proof.RowStages.lean ====
/-
  The kernel's body on one tile of 1024 rows against the reference on all 16384 rows.

  Both programs compute, row by row of x,
    h₁ = max(x·W₁ + b₁, 0), h₂ = max(h₁·W₂ + b₂, 0), d₃ = max(h₂·W₃ + b₃, 0)   (the deep tower),
    s = the row's sum,
    e ← x, then three times e ← (s·e)·cw[i,j] + cb[i,j] + x                      (the cross layers of task i),
    out_i = logistic([e, d₃]·Wl + bl),
  with the same grouping of every sum and product. Every step acts on each row by itself, so what the body makes of a
  block of rows of x is the block of rows of what the reference makes of x (Proof/LibRows.lean: `RowsOf`). The body's
  changes of float format vanish over the extended reals; its `tpu.logistic` is the reference's 1 / (1 + e^(-z)).
-/
import proofs.«117011_j12816182411985_1_alg».proof.Proof.Gen.KernelIdeal.Skeleton
import proofs.«117011_j12816182411985_1_alg».proof.Proof.Gen.ReferenceIdeal.Read
import proofs.«117011_j12816182411985_1_alg».proof.Proof.LibRows

noncomputable section

namespace Cert.Bridge

open Idealize.ShloMosaic Cert.Lib.Rows
open Cert.KernelIdeal.Gen (k0_pay1 k0_pay2 k0_pay3 k0_pay4 k0_pay5 k0_pay6 k0_pay7)
open Cert.ReferenceIdeal.Read

variable {o : Nat}
variable {xb : FVec Ideal ⟨2, ![1024, 1024]⟩ .f32} {X : FVec Ideal ⟨2, ![16384, 1024]⟩ .f32}
variable {w1 : FVec Ideal ⟨2, ![1024, 500]⟩ .bf16} {W1 : FVec Ideal ⟨2, ![1024, 500]⟩ .f32}
variable {b1 B1 : FVec Ideal ⟨1, ![500]⟩ .f32}
variable {w2 : FVec Ideal ⟨2, ![500, 200]⟩ .bf16} {W2 : FVec Ideal ⟨2, ![500, 200]⟩ .f32}
variable {b2 B2 : FVec Ideal ⟨1, ![200]⟩ .f32}
variable {w3 : FVec Ideal ⟨2, ![200, 200]⟩ .bf16} {W3 : FVec Ideal ⟨2, ![200, 200]⟩ .f32}
variable {b3 B3 : FVec Ideal ⟨1, ![200]⟩ .f32}
variable {d3b : FVec Ideal ⟨2, ![1024, 200]⟩ .f32} {D3 : FVec Ideal ⟨2, ![16384, 200]⟩ .f32}
variable {sb : FVec Ideal ⟨2, ![1024, 1]⟩ .f32} {SB : FVec Ideal ⟨2, ![16384, 1]⟩ .f32}
variable {cw cb cwk cbk : FVec Ideal ⟨3, ![2, 3, 1024]⟩ .f32}
variable {wl : FVec Ideal ⟨2, ![1224, 1]⟩ .bf16} {Wl : FVec Ideal ⟨2, ![1224, 1]⟩ .f32}
variable {bl Bl : FVec Ideal ⟨1, ![1]⟩ .f32}

/-- The deep tower: three times a product with a weight matrix, a bias added to every row, the negative part cut off.
    On a block of rows of x it gives the block of rows of the reference's d₃. -/
theorem rows_d3 (hx : RowsOf o xb X) (hw1 : ∀ q, w1 q = W1 q) (hb1 : ∀ q, b1 q = B1 q)
    (hw2 : ∀ q, w2 q = W2 q) (hb2 : ∀ q, b2 q = B2 q) (hw3 : ∀ q, w3 q = W3 q) (hb3 : ∀ q, b3 q = B3 q) :
    RowsOf o (k0_pay2 (F := Ideal) xb w1 b1 w2 b2 w3 b3) (val_main_v14 (F := Ideal) X W1 B1 W2 B2 W3 B3) := by
  unfold k0_pay2 val_main_v14 val_main_v13 val_main_v12 val_main_v11 val_main_v10 val_main_v9 val_main_v8 val_main_v7
    val_main_v6 val_main_v5 val_main_v4 val_main_v3 val_main_v2 val_main_v1 val_main_v0 val_main_call0_v0 val_main_call1_v0
    val_main_call2_v0 val_main_call0_cst val_main_call1_cst val_main_call2_cst
  dsimp only
  refine RowsOf.maximumf ?_ (RowsOf.const _ (fun _ => rfl) _ _)
  refine RowsOf.addf ?_ (RowsOf.bcastRow (row_of_vec hb3 _ _ rfl _) _ _ rfl rfl _)
  refine RowsOf.matmul_dot none none .single (RowsOf.truncf ?_ _) (shapeCast_self_eq hw3 _)
  refine RowsOf.maximumf ?_ (RowsOf.const _ (fun _ => rfl) _ _)
  refine RowsOf.addf ?_ (RowsOf.bcastRow (row_of_vec hb2 _ _ rfl _) _ _ rfl rfl _)
  refine RowsOf.matmul_dot none none .single (RowsOf.truncf ?_ _) (shapeCast_self_eq hw2 _)
  refine RowsOf.maximumf ?_ (RowsOf.const _ (fun _ => rfl) _ _)
  refine RowsOf.addf ?_ (RowsOf.bcastRow (row_of_vec hb1 _ _ rfl _) _ _ rfl rfl _)
  exact RowsOf.matmul_dot none none .single (RowsOf.truncf hx _) (shapeCast_self_eq hw1 _)

/-- The column of row sums of a block of rows of x is the block of the column of x's row sums. -/
theorem rows_xsum (hx : RowsOf o xb X) : RowsOf o (k0_pay3 (F := Ideal) xb) (val_main_v16 (F := Ideal) X) := by
  unfold k0_pay3 val_main_v16 val_main_v15 val_main_cst
  dsimp only
  exact RowsOf.rowsum hx _ _ _ _ (fun _ => Ideal.ofBits_zero_f32) _ (by decide) _ _ rfl _

/-- Task 0's head on a block of rows: the three cross layers over cw[0,·], cb[0,·], the result joined to d₃ on the
    right, the product with Wl, the bias, the logistic function. -/
theorem rows_out0 (X3 : FVec Ideal ⟨2, ![1024, 500]⟩ .f32) (X4 : FVec Ideal ⟨1, ![500]⟩ .f32)
    (X5 : FVec Ideal ⟨2, ![500, 200]⟩ .f32) (X6 : FVec Ideal ⟨1, ![200]⟩ .f32) (X7 : FVec Ideal ⟨2, ![200, 200]⟩ .f32)
    (X8 : FVec Ideal ⟨1, ![200]⟩ .f32)
    (hx : RowsOf o xb X) (hd : RowsOf o d3b (val_main_v14 (F := Ideal) X X3 X4 X5 X6 X7 X8))
    (hs : RowsOf o sb (val_main_v16 (F := Ideal) X)) (hwl : ∀ q, wl q = Wl q) (hbl : ∀ q, bl q = Bl q)
    (hcw : cwk = cw) (hcb : cbk = cb) :
    RowsOf o (k0_pay5 (F := Ideal) xb d3b sb cwk cbk wl bl)
      (val_main_v66 (F := Ideal) X X3 X4 X5 X6 X7 X8 Wl Bl cw cb) := by
  subst hcw hcb
  unfold k0_pay5 k0_pay4 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_cst_0 val_main_cst_1
  dsimp only
  refine RowsOf.logistic ?_ (bcast_one_apply _ _) (bcast_one_apply _ _)
  refine RowsOf.addf ?_ (RowsOf.bcastRow (row_of_vec hbl _ _ rfl _) _ _ rfl rfl _)
  refine RowsOf.matmul_dot none none .single (RowsOf.truncf ?_ _) (shapeCast_self_eq hwl _)
  refine RowsOf.concat ?_ hd _ _
  exact RowsOf.addf (RowsOf.addf (RowsOf.mulf (RowsOf.mulf (RowsOf.bcastCol hs _ _ rfl rfl _) (RowsOf.addf (RowsOf.addf (RowsOf.mulf (RowsOf.mulf (RowsOf.bcastCol hs _ _ rfl rfl _) (RowsOf.addf (RowsOf.addf (RowsOf.mulf (RowsOf.mulf (RowsOf.bcastCol hs _ _ rfl rfl _) (hx)) (RowsOf.bcastRow (row_of_vec (fun _ => rfl) _ _ rfl _) _ _ rfl rfl _)) (RowsOf.bcastRow (row_of_vec (fun _ => rfl) _ _ rfl _) _ _ rfl rfl _)) hx)) (RowsOf.bcastRow (row_of_vec (fun _ => rfl) _ _ rfl _) _ _ rfl rfl _)) (RowsOf.bcastRow (row_of_vec (fun _ => rfl) _ _ rfl _) _ _ rfl rfl _)) hx)) (RowsOf.bcastRow (row_of_vec (fun _ => rfl) _ _ rfl _) _ _ rfl rfl _)) (RowsOf.bcastRow (row_of_vec (fun _ => rfl) _ _ rfl _) _ _ rfl rfl _)) hx

/-- Task 1's head on a block of rows: the same over cw[1,·], cb[1,·] (the body hands the first layer's product s·x and
    the first slice of cw to this part as values of their own). -/
theorem rows_out1 (X3 : FVec Ideal ⟨2, ![1024, 500]⟩ .f32) (X4 : FVec Ideal ⟨1, ![500]⟩ .f32)
    (X5 : FVec Ideal ⟨2, ![500, 200]⟩ .f32) (X6 : FVec Ideal ⟨1, ![200]⟩ .f32) (X7 : FVec Ideal ⟨2, ![200, 200]⟩ .f32)
    (X8 : FVec Ideal ⟨1, ![200]⟩ .f32)
    (hx : RowsOf o xb X) (hd : RowsOf o d3b (val_main_v14 (F := Ideal) X X3 X4 X5 X6 X7 X8))
    (hs : RowsOf o sb (val_main_v16 (F := Ideal) X)) (hwl : ∀ q, wl q = Wl q) (hbl : ∀ q, bl q = Bl q)
    (hcw : cwk = cw) (hcb : cbk = cb) :
    RowsOf o (k0_pay1 (F := Ideal) xb d3b sb cwk cbk (k0_pay4 wl) bl (k0_pay6 xb sb) (k0_pay7 cwk))
      (val_main_v116 (F := Ideal) X X3 X4 X5 X6 X7 X8 Wl Bl cw cb) := by
  subst hcw hcb
  unfold k0_pay1 k0_pay4 k0_pay6 k0_pay7 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_cst_2 val_main_cst_3
  dsimp only
  refine RowsOf.logistic ?_ (bcast_one_apply _ _) (bcast_one_apply _ _)
  refine RowsOf.addf ?_ (RowsOf.bcastRow (row_of_vec hbl _ _ rfl _) _ _ rfl rfl _)
  refine RowsOf.matmul_dot none none .single (RowsOf.truncf ?_ _) (shapeCast_self_eq hwl _)
  refine RowsOf.concat ?_ hd _ _
  exact RowsOf.addf (RowsOf.addf (RowsOf.mulf (RowsOf.mulf (RowsOf.bcastCol hs _ _ rfl rfl _) (RowsOf.addf (RowsOf.addf (RowsOf.mulf (RowsOf.mulf (RowsOf.bcastCol hs _ _ rfl rfl _) (RowsOf.addf (RowsOf.addf (RowsOf.mulf (RowsOf.mulf (RowsOf.bcastCol hs _ _ rfl rfl _) (hx)) (RowsOf.bcastRow (row_of_vec (fun _ => rfl) _ _ rfl _) _ _ rfl rfl _)) (RowsOf.bcastRow (row_of_vec (fun _ => rfl) _ _ rfl _) _ _ rfl rfl _)) hx)) (RowsOf.bcastRow (row_of_vec (fun _ => rfl) _ _ rfl _) _ _ rfl rfl _)) (RowsOf.bcastRow (row_of_vec (fun _ => rfl) _ _ rfl _) _ _ rfl rfl _)) hx)) (RowsOf.bcastRow (row_of_vec (fun _ => rfl) _ _ rfl _) _ _ rfl rfl _)) (RowsOf.bcastRow (row_of_vec (fun _ => rfl) _ _ rfl _) _ _ rfl rfl _)) hx

/-- Result 0 of the body on a block of rows of x is the block of rows of the reference's result 0. -/
theorem rows_result0 (hx : RowsOf o xb X) (hw1 : ∀ q, w1 q = W1 q) (hb1 : ∀ q, b1 q = B1 q)
    (hw2 : ∀ q, w2 q = W2 q) (hb2 : ∀ q, b2 q = B2 q) (hw3 : ∀ q, w3 q = W3 q) (hb3 : ∀ q, b3 q = B3 q)
    (hwl : ∀ q, wl q = Wl q) (hbl : ∀ q, bl q = Bl q) (hcw : cwk = cw) (hcb : cbk = cb) :
    RowsOf o (k0_pay5 (F := Ideal) xb (k0_pay2 xb w1 b1 w2 b2 w3 b3) (k0_pay3 xb) cwk cbk wl bl)
      (val_main_v66 (F := Ideal) X W1 B1 W2 B2 W3 B3 Wl Bl cw cb) :=
  rows_out0 W1 B1 W2 B2 W3 B3 hx (rows_d3 hx hw1 hb1 hw2 hb2 hw3 hb3) (rows_xsum hx) hwl hbl hcw hcb

/-- Result 1 likewise. -/
theorem rows_result1 (hx : RowsOf o xb X) (hw1 : ∀ q, w1 q = W1 q) (hb1 : ∀ q, b1 q = B1 q)
    (hw2 : ∀ q, w2 q = W2 q) (hb2 : ∀ q, b2 q = B2 q) (hw3 : ∀ q, w3 q = W3 q) (hb3 : ∀ q, b3 q = B3 q)
    (hwl : ∀ q, wl q = Wl q) (hbl : ∀ q, bl q = Bl q) (hcw : cwk = cw) (hcb : cbk = cb) :
    RowsOf o (k0_pay1 (F := Ideal) xb (k0_pay2 xb w1 b1 w2 b2 w3 b3) (k0_pay3 xb) cwk cbk (k0_pay4 wl) bl
        (k0_pay6 xb (k0_pay3 xb)) (k0_pay7 cwk))
      (val_main_v116 (F := Ideal) X W1 B1 W2 B2 W3 B3 Wl Bl cw cb) :=
  rows_out1 W1 B1 W2 B2 W3 B3 hx (rows_d3 hx hw1 hb1 hw2 hb2 hw3 hb3) (rows_xsum hx) hwl hbl hcw hcb

end Cert.Bridge

end
-- ==== Proof.Blocks.lean ====
/-
  From the tiles to the arrays.

  The kernel walks x in sixteen tiles of 1024 rows; every other operand is one block, its whole array, at every grid
  point (the weight matrices after the host's change of float format, which over the extended reals changes nothing). At
  grid point t the body therefore turns rows 1024 t … 1024 t + 1023 of x into the same rows of the reference's two results
  (Proof/RowStages.lean), and writes them back to those rows of the result arrays; the sixteen blocks tile the 16384
  rows, so after the run each result array is the reference's result, as one function of the argument arrays.
-/
import proofs.«117011_j12816182411985_1_alg».proof.Proof.Gen.KernelIdeal.Value
import proofs.«117011_j12816182411985_1_alg».proof.Proof.RowStages
import Idealize.ShloMosaic.Lib.Pipeline.Value
import Idealize.ShloMosaic.Lib.StableHlo.Run
import Idealize.ShloMosaic.Lib.Tactic

set_option maxRecDepth 16384

noncomputable section

namespace Cert.Bridge

open Idealize.ShloMosaic Idealize.ShloMosaic.TcCoe Idealize.SL.Sem Cert.Lib.Rows
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The tile of x at grid point t is rows 1024 t … 1024 t + 1023 of x. -/
theorem iblk0_rows (c : Dev nD) (t : Fin cfg0.N) :
    RowsOf (1024 * t.val) (iblk m c 0 t : Vec Ideal S1024x1024 .f32) (m ((c : Thread nD τ).loc main_arg0) : S16384x1024.Idx → EReal) := by
  intro y i h0 h1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold iblk
  rw [View.read_apply]
  show V m c main_arg0 _ = m (c.tc.loc main_arg0) i
  rw [V_main_arg0]
  congr 1
  funext a
  apply Fin.ext
  match a with
  | ⟨0, _⟩ => show win0_0.index t (0 : Fin 2) * 1024 + 1 * (y 0).val = (i 0).val; rw [hi.1, h0]; omega
  | ⟨1, _⟩ => show win0_0.index t (1 : Fin 2) * 1024 + 1 * (y 1).val = (i 1).val; rw [hi.2, h1]; omega

/-- Window 1's block is its whole array at every grid point. -/
theorem iblk1_apply (c : Dev nD) (t : Fin cfg0.N) (q : S2x3x1024.Idx) :
    (iblk m c 1 t : Vec Ideal S2x3x1024 .f32) q = (V m c main_arg11 : S2x3x1024.Idx → EReal) q := by
  have hi : win0_1.index t (0 : Fin 3) = 0 ∧ win0_1.index t (1 : Fin 3) = 0 ∧ win0_1.index t (2 : Fin 3) = 0 :=
    (by decide +kernel : ∀ t : Fin grid0.N, win0_1.index t (0 : Fin 3) = 0 ∧ win0_1.index t (1 : Fin 3) = 0 ∧ win0_1.index t (2 : Fin 3) = 0) t
  unfold iblk
  rw [View.read_apply]
  show V m c main_arg11 _ = V m c main_arg11 q
  congr 1
  funext a
  apply Fin.ext
  match a with
  | ⟨0, _⟩ => show win0_1.index t (0 : Fin 3) * 2 + 1 * (q 0).val = (q 0).val; rw [hi.1]; omega
  | ⟨1, _⟩ => show win0_1.index t (1 : Fin 3) * 3 + 1 * (q 1).val = (q 1).val; rw [hi.2.1]; omega
  | ⟨2, _⟩ => show win0_1.index t (2 : Fin 3) * 1024 + 1 * (q 2).val = (q 2).val; rw [hi.2.2]; omega

/-- Window 2's block is its whole array at every grid point. -/
theorem iblk2_apply (c : Dev nD) (t : Fin cfg0.N) (q : S2x3x1024.Idx) :
    (iblk m c 2 t : Vec Ideal S2x3x1024 .f32) q = (V m c main_arg12 : S2x3x1024.Idx → EReal) q := by
  have hi : win0_2.index t (0 : Fin 3) = 0 ∧ win0_2.index t (1 : Fin 3) = 0 ∧ win0_2.index t (2 : Fin 3) = 0 :=
    (by decide +kernel : ∀ t : Fin grid0.N, win0_2.index t (0 : Fin 3) = 0 ∧ win0_2.index t (1 : Fin 3) = 0 ∧ win0_2.index t (2 : Fin 3) = 0) t
  unfold iblk
  rw [View.read_apply]
  show V m c main_arg12 _ = V m c main_arg12 q
  congr 1
  funext a
  apply Fin.ext
  match a with
  | ⟨0, _⟩ => show win0_2.index t (0 : Fin 3) * 2 + 1 * (q 0).val = (q 0).val; rw [hi.1]; omega
  | ⟨1, _⟩ => show win0_2.index t (1 : Fin 3) * 3 + 1 * (q 1).val = (q 1).val; rw [hi.2.1]; omega
  | ⟨2, _⟩ => show win0_2.index t (2 : Fin 3) * 1024 + 1 * (q 2).val = (q 2).val; rw [hi.2.2]; omega

/-- Window 3's block is its whole array at every grid point. -/
theorem iblk3_apply (c : Dev nD) (t : Fin cfg0.N) (q : S1024x500.Idx) :
    (iblk m c 3 t : Vec Ideal S1024x500 .bf16) q = (V m c main_v0 : S1024x500.Idx → EReal) q := by
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  unfold iblk
  rw [View.read_apply]
  show V m c main_v0 _ = V m c main_v0 q
  congr 1
  funext a
  apply Fin.ext
  match a with
  | ⟨0, _⟩ => show win0_3.index t (0 : Fin 2) * 1024 + 1 * (q 0).val = (q 0).val; rw [hi.1]; omega
  | ⟨1, _⟩ => show win0_3.index t (1 : Fin 2) * 500 + 1 * (q 1).val = (q 1).val; rw [hi.2]; omega

/-- Window 4's block is its whole array at every grid point. -/
theorem iblk4_apply (c : Dev nD) (t : Fin cfg0.N) (q : S500.Idx) :
    (iblk m c 4 t : Vec Ideal S500 .f32) q = (V m c main_arg4 : S500.Idx → EReal) q := by
  have hi : win0_4.index t (0 : Fin 1) = 0 :=
    (by decide +kernel : ∀ t : Fin grid0.N, win0_4.index t (0 : Fin 1) = 0) t
  unfold iblk
  rw [View.read_apply]
  show V m c main_arg4 _ = V m c main_arg4 q
  congr 1
  funext a
  apply Fin.ext
  match a with
  | ⟨0, _⟩ => show win0_4.index t (0 : Fin 1) * 500 + 1 * (q 0).val = (q 0).val; rw [hi]; omega

/-- Window 5's block is its whole array at every grid point. -/
theorem iblk5_apply (c : Dev nD) (t : Fin cfg0.N) (q : S500x200.Idx) :
    (iblk m c 5 t : Vec Ideal S500x200 .bf16) q = (V m c main_v1 : S500x200.Idx → EReal) q := by
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  unfold iblk
  rw [View.read_apply]
  show V m c main_v1 _ = V m c main_v1 q
  congr 1
  funext a
  apply Fin.ext
  match a with
  | ⟨0, _⟩ => show win0_5.index t (0 : Fin 2) * 500 + 1 * (q 0).val = (q 0).val; rw [hi.1]; omega
  | ⟨1, _⟩ => show win0_5.index t (1 : Fin 2) * 200 + 1 * (q 1).val = (q 1).val; rw [hi.2]; omega

/-- Window 6's block is its whole array at every grid point. -/
theorem iblk6_apply (c : Dev nD) (t : Fin cfg0.N) (q : S200.Idx) :
    (iblk m c 6 t : Vec Ideal S200 .f32) q = (V m c main_arg6 : S200.Idx → EReal) q := by
  have hi : win0_6.index t (0 : Fin 1) = 0 :=
    (by decide +kernel : ∀ t : Fin grid0.N, win0_6.index t (0 : Fin 1) = 0) t
  unfold iblk
  rw [View.read_apply]
  show V m c main_arg6 _ = V m c main_arg6 q
  congr 1
  funext a
  apply Fin.ext
  match a with
  | ⟨0, _⟩ => show win0_6.index t (0 : Fin 1) * 200 + 1 * (q 0).val = (q 0).val; rw [hi]; omega

/-- Window 7's block is its whole array at every grid point. -/
theorem iblk7_apply (c : Dev nD) (t : Fin cfg0.N) (q : S200x200.Idx) :
    (iblk m c 7 t : Vec Ideal S200x200 .bf16) q = (V m c main_v2 : S200x200.Idx → EReal) q := by
  have hi : win0_7.index t (0 : Fin 2) = 0 ∧ win0_7.index t (1 : Fin 2) = 0 :=
    (by decide +kernel : ∀ t : Fin grid0.N, win0_7.index t (0 : Fin 2) = 0 ∧ win0_7.index t (1 : Fin 2) = 0) t
  unfold iblk
  rw [View.read_apply]
  show V m c main_v2 _ = V m c main_v2 q
  congr 1
  funext a
  apply Fin.ext
  match a with
  | ⟨0, _⟩ => show win0_7.index t (0 : Fin 2) * 200 + 1 * (q 0).val = (q 0).val; rw [hi.1]; omega
  | ⟨1, _⟩ => show win0_7.index t (1 : Fin 2) * 200 + 1 * (q 1).val = (q 1).val; rw [hi.2]; omega

/-- Window 8's block is its whole array at every grid point. -/
theorem iblk8_apply (c : Dev nD) (t : Fin cfg0.N) (q : S200.Idx) :
    (iblk m c 8 t : Vec Ideal S200 .f32) q = (V m c main_arg8 : S200.Idx → EReal) q := by
  have hi : win0_8.index t (0 : Fin 1) = 0 :=
    (by decide +kernel : ∀ t : Fin grid0.N, win0_8.index t (0 : Fin 1) = 0) t
  unfold iblk
  rw [View.read_apply]
  show V m c main_arg8 _ = V m c main_arg8 q
  congr 1
  funext a
  apply Fin.ext
  match a with
  | ⟨0, _⟩ => show win0_8.index t (0 : Fin 1) * 200 + 1 * (q 0).val = (q 0).val; rw [hi]; omega

/-- Window 9's block is its whole array at every grid point. -/
theorem iblk9_apply (c : Dev nD) (t : Fin cfg0.N) (q : S1224x1.Idx) :
    (iblk m c 9 t : Vec Ideal S1224x1 .bf16) q = (V m c main_v3 : S1224x1.Idx → EReal) q := by
  have hi : win0_9.index t (0 : Fin 2) = 0 ∧ win0_9.index t (1 : Fin 2) = 0 :=
    (by decide +kernel : ∀ t : Fin grid0.N, win0_9.index t (0 : Fin 2) = 0 ∧ win0_9.index t (1 : Fin 2) = 0) t
  unfold iblk
  rw [View.read_apply]
  show V m c main_v3 _ = V m c main_v3 q
  congr 1
  funext a
  apply Fin.ext
  match a with
  | ⟨0, _⟩ => show win0_9.index t (0 : Fin 2) * 1224 + 1 * (q 0).val = (q 0).val; rw [hi.1]; omega
  | ⟨1, _⟩ => show win0_9.index t (1 : Fin 2) * 1 + 1 * (q 1).val = (q 1).val; rw [hi.2]; omega

/-- Window 10's block is its whole array at every grid point. -/
theorem iblk10_apply (c : Dev nD) (t : Fin cfg0.N) (q : S1.Idx) :
    (iblk m c 10 t : Vec Ideal S1 .f32) q = (V m c main_arg10 : S1.Idx → EReal) q := by
  have hi : win0_10.index t (0 : Fin 1) = 0 :=
    (by decide +kernel : ∀ t : Fin grid0.N, win0_10.index t (0 : Fin 1) = 0) t
  unfold iblk
  rw [View.read_apply]
  show V m c main_arg10 _ = V m c main_arg10 q
  congr 1
  funext a
  apply Fin.ext
  match a with
  | ⟨0, _⟩ => show win0_10.index t (0 : Fin 1) * 1 + 1 * (q 0).val = (q 0).val; rw [hi]; omega

/-- The weight matrix W₁ as the region finds it: the host's change of float format of the argument, entry for entry the argument. -/
theorem V_main_v0 (c : Dev nD) (q : S1024x500.Idx) :
    (V m c main_v0 : S1024x500.Idx → EReal) q = (m ((c : Thread nD τ).loc main_arg3) : S1024x500.Idx → EReal) q := by
  have e : (V m c main_v0 : S1024x500.Idx → EReal)
      = truncf (F := Ideal) .bf16 (m ((c : Thread nD τ).loc main_arg3) : FVec Ideal S1024x500 .f32) bitsLt_bf16_f32 := by
    dsimp only [Gen.V, Gen.hostOps0]; after_results
  rw [e]
  rfl

/-- The weight matrix W₂ as the region finds it: the host's change of float format of the argument, entry for entry the argument. -/
theorem V_main_v1 (c : Dev nD) (q : S500x200.Idx) :
    (V m c main_v1 : S500x200.Idx → EReal) q = (m ((c : Thread nD τ).loc main_arg5) : S500x200.Idx → EReal) q := by
  have e : (V m c main_v1 : S500x200.Idx → EReal)
      = truncf (F := Ideal) .bf16 (m ((c : Thread nD τ).loc main_arg5) : FVec Ideal S500x200 .f32) bitsLt_bf16_f32 := by
    dsimp only [Gen.V, Gen.hostOps0]; after_results
  rw [e]
  rfl

/-- The weight matrix W₃ as the region finds it: the host's change of float format of the argument, entry for entry the argument. -/
theorem V_main_v2 (c : Dev nD) (q : S200x200.Idx) :
    (V m c main_v2 : S200x200.Idx → EReal) q = (m ((c : Thread nD τ).loc main_arg7) : S200x200.Idx → EReal) q := by
  have e : (V m c main_v2 : S200x200.Idx → EReal)
      = truncf (F := Ideal) .bf16 (m ((c : Thread nD τ).loc main_arg7) : FVec Ideal S200x200 .f32) bitsLt_bf16_f32 := by
    dsimp only [Gen.V, Gen.hostOps0]; after_results
  rw [e]
  rfl

/-- The head's weight column Wl as the region finds it: the host's change of float format of the argument, entry for entry the argument. -/
theorem V_main_v3 (c : Dev nD) (q : S1224x1.Idx) :
    (V m c main_v3 : S1224x1.Idx → EReal) q = (m ((c : Thread nD τ).loc main_arg9) : S1224x1.Idx → EReal) q := by
  have e : (V m c main_v3 : S1224x1.Idx → EReal)
      = truncf (F := Ideal) .bf16 (m ((c : Thread nD τ).loc main_arg9) : FVec Ideal S1224x1 .f32) bitsLt_bf16_f32 := by
    dsimp only [Gen.V, Gen.hostOps0]; after_results
  rw [e]
  rfl

/-- Result 0 as one function of the argument arrays: the reference's result 0 at the kernel's arguments. -/
abbrev G0 (c : Dev nD) : S16384x1.Idx → EReal :=
  Cert.ReferenceIdeal.Read.val_main_v66 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Result 1 as one function of the argument arrays: the reference's result 1 at the kernel's arguments. -/
abbrev G1 (c : Dev nD) : S16384x1.Idx → EReal :=
  Cert.ReferenceIdeal.Read.val_main_v116 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What grid point t writes back to result 0's array is block t — rows 1024 t … 1024 t + 1023 — of the
    reference's result at the kernel's arguments. -/
theorem flushed11_eq (c : Dev nD) (t : Fin cfg0.N) :
    (dats m 0 c).flushed 11 t = ((cfg0.win 11).blk t).view.read (Elt Ideal) (G0 m c) := by
  rw [Value.flushed11]
  unfold out0_11
  rw [View.canon_unit_zero hz2]
  simp only [View.ld_unit_zero (S := S1024x1024) hz2, View.ld_unit_zero (S := S1024x500) hz2,
    View.ld_unit_zero (S := S500) hz1, View.ld_unit_zero (S := S500x200) hz2, View.ld_unit_zero (S := S200) hz1,
    View.ld_unit_zero (S := S200x200) hz2, View.ld_unit_zero (S := S2x3x1024) hz3, View.ld_unit_zero (S := S1224x1) hz2,
    View.ld_unit_zero (S := S1) hz1]
  have hi : win0_11.index t (0 : Fin 2) = t.val ∧ win0_11.index t (1 : Fin 2) = 0 :=
    (by decide +kernel : ∀ t : Fin grid0.N, win0_11.index t (0 : Fin 2) = t.val ∧ win0_11.index t (1 : Fin 2) = 0) t
  funext j
  rw [View.read_apply]
  refine rows_result0 (o := 1024 * t.val) (iblk0_rows m c t)
    (fun q => (iblk3_apply m c t q).trans (V_main_v0 m c q))
    (fun q => (iblk4_apply m c t q).trans (congrFun (V_main_arg4 m c) q))
    (fun q => (iblk5_apply m c t q).trans (V_main_v1 m c q))
    (fun q => (iblk6_apply m c t q).trans (congrFun (V_main_arg6 m c) q))
    (fun q => (iblk7_apply m c t q).trans (V_main_v2 m c q))
    (fun q => (iblk8_apply m c t q).trans (congrFun (V_main_arg8 m c) q))
    (fun q => (iblk9_apply m c t q).trans (V_main_v3 m c q))
    (fun q => (iblk10_apply m c t q).trans (congrFun (V_main_arg10 m c) q))
    (funext fun q => (iblk1_apply m c t q).trans (congrFun (V_main_arg11 m c) q))
    (funext fun q => (iblk2_apply m c t q).trans (congrFun (V_main_arg12 m c) q))
    j _ ?_ ?_
  · show win0_11.index t (0 : Fin 2) * 1024 + 1 * (j 0).val = 1024 * t.val + (j 0).val
    rw [hi.1]; omega
  · show win0_11.index t (1 : Fin 2) * 1 + 1 * (j 1).val = (j 1).val
    rw [hi.2]; omega

/-- What grid point t writes back to result 1's array is block t — rows 1024 t … 1024 t + 1023 — of the
    reference's result at the kernel's arguments. -/
theorem flushed12_eq (c : Dev nD) (t : Fin cfg0.N) :
    (dats m 0 c).flushed 12 t = ((cfg0.win 12).blk t).view.read (Elt Ideal) (G1 m c) := by
  rw [Value.flushed12]
  unfold out0_12
  rw [View.canon_unit_zero hz2]
  simp only [View.ld_unit_zero (S := S1024x1024) hz2, View.ld_unit_zero (S := S1024x500) hz2,
    View.ld_unit_zero (S := S500) hz1, View.ld_unit_zero (S := S500x200) hz2, View.ld_unit_zero (S := S200) hz1,
    View.ld_unit_zero (S := S200x200) hz2, View.ld_unit_zero (S := S2x3x1024) hz3, View.ld_unit_zero (S := S1224x1) hz2,
    View.ld_unit_zero (S := S1) hz1]
  have hi : win0_12.index t (0 : Fin 2) = t.val ∧ win0_12.index t (1 : Fin 2) = 0 :=
    (by decide +kernel : ∀ t : Fin grid0.N, win0_12.index t (0 : Fin 2) = t.val ∧ win0_12.index t (1 : Fin 2) = 0) t
  funext j
  rw [View.read_apply]
  refine rows_result1 (o := 1024 * t.val) (iblk0_rows m c t)
    (fun q => (iblk3_apply m c t q).trans (V_main_v0 m c q))
    (fun q => (iblk4_apply m c t q).trans (congrFun (V_main_arg4 m c) q))
    (fun q => (iblk5_apply m c t q).trans (V_main_v1 m c q))
    (fun q => (iblk6_apply m c t q).trans (congrFun (V_main_arg6 m c) q))
    (fun q => (iblk7_apply m c t q).trans (V_main_v2 m c q))
    (fun q => (iblk8_apply m c t q).trans (congrFun (V_main_arg8 m c) q))
    (fun q => (iblk9_apply m c t q).trans (V_main_v3 m c q))
    (fun q => (iblk10_apply m c t q).trans (congrFun (V_main_arg10 m c) q))
    (funext fun q => (iblk1_apply m c t q).trans (congrFun (V_main_arg11 m c) q))
    (funext fun q => (iblk2_apply m c t q).trans (congrFun (V_main_arg12 m c) q))
    j _ ?_ ?_
  · show win0_12.index t (0 : Fin 2) * 1024 + 1 * (j 0).val = 1024 * t.val + (j 0).val
    rw [hi.1]; omega
  · show win0_12.index t (1 : Fin 2) * 1 + 1 * (j 1).val = (j 1).val
    rw [hi.2]; omega

/-- Every row of result 0's array lies in the block of the grid point its number divided by 1024 names. -/
theorem cover11 (i : S16384x1.Idx) :
    ∃ t : Fin cfg0.N, (cfg0.win 11).flush t = true ∧ i ∈ ((cfg0.win 11).blk t).view.set := by
  have hi0 : (i 0).val < 16384 := (i 0).isLt
  have hi1 : (i 1).val < 1 := (i 1).isLt
  have hN : grid0.N = 16 := N_0
  let t : Fin cfg0.N := ⟨(i 0).val / 1024, by show (i 0).val / 1024 < grid0.N; rw [hN]; omega⟩
  have hi : win0_11.index t (0 : Fin 2) = t.val ∧ win0_11.index t (1 : Fin 2) = 0 :=
    (by decide +kernel : ∀ t : Fin grid0.N, win0_11.index t (0 : Fin 2) = t.val ∧ win0_11.index t (1 : Fin 2) = 0) t
  have ht : t.val = (i 0).val / 1024 := rfl
  refine ⟨t, flush0_11 t, ?_⟩
  show i ∈ ((View.whole main_v4_0).slice (win0_11.rect t)).set
  rw [View.set_slice_whole, Rect.mem_set_unit]
  intro a
  match a with
  | ⟨0, _⟩ =>
    show win0_11.index t (0 : Fin 2) * 1024 ≤ (i 0).val ∧ (i 0).val < win0_11.index t (0 : Fin 2) * 1024 + 1024
    rw [hi.1, ht]; omega
  | ⟨1, _⟩ =>
    show win0_11.index t (1 : Fin 2) * 1 ≤ (i 1).val ∧ (i 1).val < win0_11.index t (1 : Fin 2) * 1 + 1
    rw [hi.2]; omega

/-- So result 0's array ends holding the reference's result at the kernel's arguments. -/
theorem final11 (c : Dev nD) : (dats m 0 c).arrAt 11 cfg0.N = G0 m c :=
  (dats m 0 c).arrAt_eq_of_cover 11 (G0 m c) (fun t _ => flushed11_eq m c t) cover11

/-- Every row of result 1's array lies in the block of the grid point its number divided by 1024 names. -/
theorem cover12 (i : S16384x1.Idx) :
    ∃ t : Fin cfg0.N, (cfg0.win 12).flush t = true ∧ i ∈ ((cfg0.win 12).blk t).view.set := by
  have hi0 : (i 0).val < 16384 := (i 0).isLt
  have hi1 : (i 1).val < 1 := (i 1).isLt
  have hN : grid0.N = 16 := N_0
  let t : Fin cfg0.N := ⟨(i 0).val / 1024, by show (i 0).val / 1024 < grid0.N; rw [hN]; omega⟩
  have hi : win0_12.index t (0 : Fin 2) = t.val ∧ win0_12.index t (1 : Fin 2) = 0 :=
    (by decide +kernel : ∀ t : Fin grid0.N, win0_12.index t (0 : Fin 2) = t.val ∧ win0_12.index t (1 : Fin 2) = 0) t
  have ht : t.val = (i 0).val / 1024 := rfl
  refine ⟨t, flush0_12 t, ?_⟩
  show i ∈ ((View.whole main_v4_1).slice (win0_12.rect t)).set
  rw [View.set_slice_whole, Rect.mem_set_unit]
  intro a
  match a with
  | ⟨0, _⟩ =>
    show win0_12.index t (0 : Fin 2) * 1024 ≤ (i 0).val ∧ (i 0).val < win0_12.index t (0 : Fin 2) * 1024 + 1024
    rw [hi.1, ht]; omega
  | ⟨1, _⟩ =>
    show win0_12.index t (1 : Fin 2) * 1 ≤ (i 1).val ∧ (i 1).val < win0_12.index t (1 : Fin 2) * 1 + 1
    rw [hi.2]; omega

/-- So result 1's array ends holding the reference's result at the kernel's arguments. -/
theorem final12 (c : Dev nD) : (dats m 0 c).arrAt 12 cfg0.N = G1 m c :=
  (dats m 0 c).arrAt_eq_of_cover 12 (G1 m c) (fun t _ => flushed12_eq m c t) cover12

/-- The kernel's run, read: each result array at the reference's result of the argument arrays, the arguments unchanged. -/
theorem run : θ_run defs (onTc (τ := τ) (main (F := Ideal))) ⟨m, fun _ => 0, ρ⟩ fun r => ∀ c : Dev nD,
      r.2.mem ((c : Thread nD τ).loc main_v4_0) = G0 m c
      ∧ r.2.mem ((c : Thread nD τ).loc main_v4_1) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final11 m c), (h c).2.1.trans (final12 m c), (h c).2.2⟩)
    (Cert.KernelIdeal.Value.run_blocks m ρ)

end Cert.Bridge

end
-- ==== Proof.lean ====
/-
  The certificate: a deep-and-cross network's two sigmoid heads, computed by one Pallas kernel that walks the batch in
  tiles of 1024 rows, against the plain jnp program on the whole batch.

  Over the extended reals both programs apply, to every row of x, the same operations in the same order: three dense
  layers with relu, the row's sum, three cross layers e ← (s·e)·cw[i,j] + cb[i,j] + x for each of two tasks, the join
  [e, d₃], a product with Wl, a bias, and the logistic function (the kernel's one operation, the reference's
  1 / (1 + e^(-z)): one function). The kernel's changes of float format are identities there, its matrix products into
  zero accumulators and its lane reductions are the host's sums. Since every step acts on each row by itself, a tile's
  result is the matching rows of the reference's result (Proof/LibRows.lean, Proof/RowStages.lean), and the sixteen tiles
  fill the result arrays (Proof/Blocks.lean). No law of arithmetic beyond the definitions is used, so the precondition is
  never opened. The three frames are the generated frame runs; the ideal pass rewrote nothing, so `preserves` is trivial.
-/
import proofs.«117011_j12816182411985_1_alg».proof.Defs
import proofs.«117011_j12816182411985_1_alg».proof.Proof.Gen.Kernel
import proofs.«117011_j12816182411985_1_alg».proof.Proof.Gen.Kernel.Skeleton
import proofs.«117011_j12816182411985_1_alg».proof.Proof.Gen.Kernel.Launch
import proofs.«117011_j12816182411985_1_alg».proof.Proof.Gen.Kernel.Points
import proofs.«117011_j12816182411985_1_alg».proof.Proof.Gen.Kernel.Frame
import proofs.«117011_j12816182411985_1_alg».proof.Proof.Gen.KernelIdeal
import proofs.«117011_j12816182411985_1_alg».proof.Proof.Gen.KernelIdeal.Skeleton
import proofs.«117011_j12816182411985_1_alg».proof.Proof.Gen.KernelIdeal.Launch
import proofs.«117011_j12816182411985_1_alg».proof.Proof.Gen.KernelIdeal.Points
import proofs.«117011_j12816182411985_1_alg».proof.Proof.Gen.KernelIdeal.Frame
import proofs.«117011_j12816182411985_1_alg».proof.Proof.Gen.ReferenceIdeal
import proofs.«117011_j12816182411985_1_alg».proof.Proof.Gen.Pre_finite_inputs
import proofs.«117011_j12816182411985_1_alg».proof.Proof.Gen.KernelIdeal.Value
import proofs.«117011_j12816182411985_1_alg».proof.Proof.Gen.ReferenceIdeal.Run
import proofs.«117011_j12816182411985_1_alg».proof.Proof.Gen.ReferenceIdeal.Read
import proofs.«117011_j12816182411985_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_p : Cert.frame_Kernel := fun m ρ _ => Cert.Kernel.Gen.frame m ρ

/-- So does the kernel read over the extended reals. -/
theorem frame_pi : Cert.frame_KernelIdeal := fun m ρ _ => Cert.KernelIdeal.Gen.frame m ρ

/-- The reference is a straight line of host operations: its run, the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two results of the argument arrays: the kernel's result arrays hold them
    tile by tile, the reference's run states them outright, and the two memories agree on the arguments. -/
theorem algebraic : Cert.algebraic_KernelIdeal_ReferenceIdeal := by
  intro m ρ m' ρ' _ hagree
  refine ⟨fun c => Cert.Bridge.G0 m c, fun c => Cert.Bridge.G1 m c, Cert.Bridge.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2⟩
  · rw [Cert.ReferenceIdeal.Read.val_main_v66_eq, a0, a3, a4, a5, a6, a7, a8, a9, a10, a11, a12]
  · rw [Cert.ReferenceIdeal.Read.val_main_v116_eq, a0, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
